-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x64 : Shape := ⟨2, ![4096, 64]⟩
abbrev S64x64 : Shape := ⟨2, ![64, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S16384x4096 .f32) (main_arg1 : FVec F S4096x64 .f32) (main_arg2 : FVec F S64x64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S16384x4096 : Shape := ⟨2, ![16384, 4096]⟩
abbrev S4096x64 : Shape := ⟨2, ![4096, 64]⟩
abbrev S64x64 : Shape := ⟨2, ![64, 64]⟩
abbrev S16384x64 : Shape := ⟨2, ![16384, 64]⟩
abbrev S512x4096 : Shape := ⟨2, ![512, 4096]⟩
abbrev S512x64 : Shape := ⟨2, ![512, 64]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096x64, .f32⟩
  | .hbm, ⟨2, _⟩ => ⟨S64x64, .f32⟩
  | .hbm, ⟨3, _⟩ => ⟨S4096x64, .f32⟩
  | .hbm, ⟨4, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S512x64, .f32⟩
  | .local _ .vmem, ⟨4, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x64_S512x64_0_0 : ∀ a, (![0, 0] : Fin 2 → Nat) a + S512x64.size a ≤ S512x64.size a
  h_S512x64 : 0 < S512x64.numel
  dot_S4096x64_S64x64_S4096x64_1_0_0_1_n_n_wf : DotDims.WF S4096x64 S64x64 S4096x64 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x64 : Shape := ⟨2, ![4096, 64]⟩
abbrev S64x64 : Shape := ⟨2, ![64, 64]⟩
abbrev S16384x64 : Shape := ⟨2, ![16384, 64]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x64, .f32⟩
  | .hbm, ⟨2, _⟩ => ⟨S64x64, .f32⟩
  | .hbm, ⟨3, _⟩ => ⟨S4096x64, .f32⟩
  | .hbm, ⟨4, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x64_S64x64_S4096x64_1_0_0_1_n_n_wf : DotDims.WF S4096x64 S64x64 S4096x64 [1] [0] [0] [1] [] []
  dot_S16384x4096_S4096x64_S16384x64_1_0_0_1_n_n_wf : DotDims.WF S16384x4096 S4096x64 S16384x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.BodyProduct.lean ====
/-
  What the kernel body stores, at an entry.

  At a grid point the body loads a [512, 4096] block of tokens and the whole [4096, 64] weight, multiplies
  them into a zero accumulator, and stores the [512, 64] product. Entry (p, q) of the stored value is the sum
  over k of block[p, k] · weight[k, q]: the cast of the weight to its own shape is the identity, and the
  accumulator contributes the real zero.
-/
import proofs.«423434_j26963804685044_3_alg».proof.Proof.Gen.KernelIdeal.Skeleton
import proofs.«423434_j26963804685044_3_alg».proof.Proof.LibDot
import Idealize.ShloMosaic.Lib.Pipeline.Value

open scoped BigOperators

noncomputable section

namespace Cert.KernelIdeal.Body

open Cert.KernelIdeal Cert.KernelIdeal.Gen Idealize.ShloMosaic Idealize.ShloMosaic.ValueIdx

/-- The body's product is rows by columns: the block contracted on its second axis, the weight on its first. -/
theorem block_rows_cols : Cert.Lib.Dot.IsRowsCols dot_S512x4096_S4096x64_S512x64_1_0_0_1_n_n :=
  ⟨rfl, rfl, rfl, rfl, rfl, rfl⟩

/-- Entry (p, q) of the stored value: Σ_k block[p, k] · weight[k, q]. -/
theorem stored_apply (xb : Vec Ideal S512x4096 .f32) (w : Vec Ideal S4096x64 .f32) (p : Fin 512) (q : Fin 64) :
    k0_pay1 (F := Ideal) xb w (ix2 p q) = ∑ k : Fin 4096, xb (ix2 p k) * w (ix2 k q) := by
  unfold k0_pay1
  rw [shapeCast_self]
  exact Cert.Lib.Dot.matmul0_rc dot_S512x4096_S4096x64_S512x64_1_0_0_1_n_n block_rows_cols xb w p q

end Cert.KernelIdeal.Body

end
-- ==== Proof.LowRank.lean ====
/-
  The function both programs compute, over the extended reals.

  The token matrix x is [16384, 4096], the component table [4096, 64], the loading matrix [64, 64].
  `mix` is the product of the table with the loadings: its entry (k, o) is the sum over r of
  components[k, r] · loadings[r, o], a [4096, 64] weight. `project` is the product of the tokens with a
  weight: its entry (i, o) is the sum over k of x[i, k] · w[k, o]. The result of the layer is
  `project x (mix components loadings)`.

  Both programs nest the two sums this way — the weight first, then the tokens against it — so comparing
  them needs no law of the extended reals: no distributivity, no exchange of sums, no finiteness.
-/
import Idealize.ShloMosaic.PureOps.Ideal
import Idealize.ShloMosaic.Lib.ValueIdx

open scoped BigOperators

noncomputable section

namespace Cert.LowRank

open Idealize.ShloMosaic Idealize.ShloMosaic.ValueIdx

/-- The reconstructed weight: entry (k, o) is Σ_r components[k, r] · loadings[r, o]. -/
def mix (comp : FVec Ideal ⟨2, ![4096, 64]⟩ .f32) (load : FVec Ideal ⟨2, ![64, 64]⟩ .f32) :
    FVec Ideal ⟨2, ![4096, 64]⟩ .f32 :=
  fun j => ∑ r : Fin 64, comp (ix2 (j 0) r) * load (ix2 r (j 1))

/-- The tokens against a weight: entry (i, o) is Σ_k x[i, k] · w[k, o]. -/
def project (x : FVec Ideal ⟨2, ![16384, 4096]⟩ .f32) (w : FVec Ideal ⟨2, ![4096, 64]⟩ .f32) :
    FVec Ideal ⟨2, ![16384, 64]⟩ .f32 :=
  fun j => ∑ k : Fin 4096, x (ix2 (j 0) k) * w (ix2 k (j 1))

/-- The layer: the tokens against the reconstructed weight. -/
def layer (x : FVec Ideal ⟨2, ![16384, 4096]⟩ .f32) (comp : FVec Ideal ⟨2, ![4096, 64]⟩ .f32)
    (load : FVec Ideal ⟨2, ![64, 64]⟩ .f32) : FVec Ideal ⟨2, ![16384, 64]⟩ .f32 :=
  project x (mix comp load)

/-- The weight at explicit coordinates. -/
theorem mix_apply (comp : FVec Ideal ⟨2, ![4096, 64]⟩ .f32) (load : FVec Ideal ⟨2, ![64, 64]⟩ .f32)
    (k : Fin 4096) (o : Fin 64) : mix comp load (ix2 k o) = ∑ r : Fin 64, comp (ix2 k r) * load (ix2 r o) := rfl

/-- The projection at explicit coordinates. -/
theorem project_apply (x : FVec Ideal ⟨2, ![16384, 4096]⟩ .f32) (w : FVec Ideal ⟨2, ![4096, 64]⟩ .f32)
    (i : Fin 16384) (o : Fin 64) : project x w (ix2 i o) = ∑ k : Fin 4096, x (ix2 i k) * w (ix2 k o) := rfl

end Cert.LowRank

end
-- ==== Proof.KernelLayer.lean ====
/-
  The kernel computes the layer.

  The kernel first forms the weight on the host — the product of the component table with the loadings —
  and then runs one pipelined region over 32 grid points. At point t the region stages rows 512·t … 512·t + 511
  of the tokens (all 4096 columns), the whole weight, and writes back rows 512·t … 512·t + 511 of the result
  (all 64 columns). The body stores the product of the staged token block with the weight.

  So entry (p, q) of the block written at point t is Σ_k x[512·t + p, k] · weight[k, q], which is entry
  (512·t + p, q) of the layer: the block written at t is block t of the layer. The 32 blocks tile the
  [16384, 64] result (row r lies in block r / 512), hence the result array ends holding the layer everywhere.
-/
import proofs.«423434_j26963804685044_3_alg».proof.Proof.Gen.KernelIdeal.Value
import proofs.«423434_j26963804685044_3_alg».proof.Proof.BodyProduct
import proofs.«423434_j26963804685044_3_alg».proof.Proof.LowRank
import Idealize.ShloMosaic.Lib.StableHlo.Run
import Idealize.ShloMosaic.PureOps.Ideal.Laws

set_option maxRecDepth 16384

open scoped BigOperators

noncomputable section

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, and the weight the region finds -/

/-- The token matrix as launched. -/
abbrev tokens (c : Dev nD) : FVec Ideal ⟨2, ![16384, 4096]⟩ .f32 := m ((c : Thread nD τ).loc main_arg0)
/-- The component table as launched. -/
abbrev table (c : Dev nD) : FVec Ideal ⟨2, ![4096, 64]⟩ .f32 := m ((c : Thread nD τ).loc main_arg1)
/-- The loading matrix as launched. -/
abbrev loadings (c : Dev nD) : FVec Ideal ⟨2, ![64, 64]⟩ .f32 := m ((c : Thread nD τ).loc main_arg2)

/-- The host product is rows by columns. -/
theorem weight_rows_cols : Cert.Lib.Dot.IsRowsCols dot_S4096x64_S64x64_S4096x64_1_0_0_1_n_n :=
  ⟨rfl, rfl, rfl, rfl, rfl, rfl⟩

/-- What the region finds in the weight's buffer: the host product of the table with the loadings. -/
theorem weight_found (c : Dev nD) :
    (V m c main_v0 : S4096x64.Idx → EReal)
      = Host.dotGeneral (F := Ideal) dot_S4096x64_S64x64_S4096x64_1_0_0_1_n_n (some .fp32) (table m c) (loadings m c) := by
  dsimp only [Gen.V, Gen.hostOps0]
  after_results

/-- Entry by entry, that is the reconstructed weight: the requested precision plays no part over the reals. -/
theorem weight_eq (c : Dev nD) : (V m c main_v0 : S4096x64.Idx → EReal) = LowRank.mix (table m c) (loadings m c) := by
  rw [weight_found]
  funext j
  obtain ⟨k, o, rfl⟩ : ∃ (k : Fin 4096) (o : Fin 64), j = ix2 k o := ⟨j 0, j 1, eq_ix2 j⟩
  rw [LowRank.mix_apply]
  exact (Ideal.dotGeneral_apply dot_S4096x64_S64x64_S4096x64_1_0_0_1_n_n (some .fp32) .single (table m c) (loadings m c) (ix2 k o)).trans
    (Cert.Lib.Dot.sum_rows_cols dot_S4096x64_S64x64_S4096x64_1_0_0_1_n_n rfl rfl rfl rfl rfl rfl (table m c) (loadings m c) k o)

/-! ## The blocks at a grid point -/

/-- The token block staged at point t. -/
abbrev xblk (c : Dev nD) (t : Fin cfg0.N) : Vec Ideal S512x4096 .f32 := iblk m c 0 t
/-- The weight staged at point t (the whole array, at every point). -/
abbrev wblk (c : Dev nD) (t : Fin cfg0.N) : Vec Ideal S4096x64 .f32 := iblk m c 1 t

theorem zeros : (![0, 0] : Fin 2 → Nat) = fun _ => 0 := funext fun a => by fin_cases a <;> rfl

/-- The printed index maps over the grid: the token window moves with the result window along the rows and
    stays at column block 0; the weight window never moves; the result window's row block is below 32 and its
    column block is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every row block of the result is some point's. -/
theorem index_onto : ∀ q0 : Fin 32, ∃ t : Fin cfg0.N, win0_2.index t = ![q0.val, 0] :=
  (by decide +kernel : ∀ q0 : Fin 32, ∃ t : Fin grid0.N, win0_2.index t = ![q0.val, 0])

/-- The token block at (p, k) is the token matrix at (the result block's row for p, k). -/
theorem xblk_apply (c : Dev nD) (t : Fin cfg0.N) (p : Fin 512) (q : Fin 64) (k : Fin 4096) :
    xblk m c t (ix2 p k) = tokens m c (ix2 ((((cfg0.win 2).blk t).view.emb (ix2 p q)) 0) k) := by
  obtain ⟨e0, e1, e2, e3, e4, e5⟩ := index_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ =>
    show win0_0.index t (0 : Fin 2) * 512 + 1 * p.val = win0_2.index t (0 : Fin 2) * 512 + 1 * p.val
    omega
  | ⟨1, _⟩ =>
    show win0_0.index t (1 : Fin 2) * 4096 + 1 * k.val = k.val
    omega

/-- The staged weight at (k, q) is the weight's buffer at (k, the result block's column for q). -/
theorem wblk_apply (c : Dev nD) (t : Fin cfg0.N) (p : Fin 512) (q : Fin 64) (k : Fin 4096) :
    wblk m c t (ix2 k q) = (V m c main_v0 : S4096x64.Idx → EReal) (ix2 k ((((cfg0.win 2).blk t).view.emb (ix2 p q)) 1)) := by
  obtain ⟨e0, e1, e2, e3, e4, e5⟩ := index_facts t
  show (V m c main_v0 : S4096x64.Idx → EReal) (((cfg0.win 1).blk t).view.emb (ix2 k q)) = _
  refine congrArg (V m c main_v0 : S4096x64.Idx → EReal) (funext fun a => Fin.ext ?_)
  match a with
  | ⟨0, _⟩ =>
    show win0_1.index t (0 : Fin 2) * 4096 + 1 * k.val = k.val
    omega
  | ⟨1, _⟩ =>
    show win0_1.index t (1 : Fin 2) * 64 + 1 * q.val = win0_2.index t (1 : Fin 2) * 64 + 1 * q.val
    omega

/-! ## What a point writes back -/

/-- The block written back at point t is block t of the layer of the arguments. -/
theorem flushed_eq (c : Dev nD) (t : Fin cfg0.N) :
    (dats m 0 c).flushed 2 t
      = ((cfg0.win 2).blk t).view.read (Elt Ideal) (LowRank.layer (tokens m c) (table m c) (loadings m c)) := by
  rw [Cert.KernelIdeal.Value.flushed2]
  unfold out0_2
  rw [View.canon_unit_zero zeros]
  simp only [View.ld_unit_zero (S := S512x4096) zeros, View.ld_unit_zero (S := S4096x64) zeros]
  funext j
  obtain ⟨p, q, rfl⟩ : ∃ (p : Fin 512) (q : Fin 64), j = ix2 p q := ⟨j 0, j 1, eq_ix2 j⟩
  show k0_pay1 (F := Ideal) (xblk m c t) (wblk m c t) (ix2 p q)
    = LowRank.layer (tokens m c) (table m c) (loadings m c) (((cfg0.win 2).blk t).view.emb (ix2 p q))
  refine (Cert.KernelIdeal.Body.stored_apply (xblk m c t) (wblk m c t) p q).trans ?_
  unfold LowRank.layer LowRank.project
  refine Finset.sum_congr rfl fun k _ => ?_
  rw [xblk_apply m c t p q k, wblk_apply m c t p q k, weight_eq]

/-! ## The blocks tile the result -/

/-- An entry of the result lies in point t's block iff each coordinate lies in the block's range. -/
theorem mem_block (t : Fin cfg0.N) (i : S16384x64.Idx) :
    i ∈ ((cfg0.win 2).blk t).view.set
      ↔ ∀ a : Fin 2, win0_2.index t a * S512x64.size a ≤ (i a).val ∧ (i a).val < win0_2.index t a * S512x64.size a + S512x64.size a := by
  show i ∈ ((View.whole main_v1).slice (win0_2.rect t)).set ↔ _
  rw [View.set_slice_whole, Rect.mem_set_unit]
  exact Iff.rfl

/-- Every entry of the result is in some written block: row r is in row block r / 512. -/
theorem covered (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 64 ≤ (i 1).val ∧ (i 1).val < win0_2.index t (1 : Fin 2) * 64 + 64
    omega

/-! ## The result array, and the run -/

/-- After the region the result array holds the layer of the arguments. -/
theorem final (c : Dev nD) :
    (dats m 0 c).arrAt 2 cfg0.N = LowRank.layer (tokens m c) (table m c) (loadings m c) :=
  (dats m 0 c).arrAt_eq_of_cover 2 _ (fun t _ => flushed_eq m c t) covered

/-- Every weakly fair execution of the kernel's program terminates with the result at the layer of the
    arguments and the arguments unchanged. -/
theorem run : θ_run defs (onTc (τ := τ) (main (F := Ideal))) ⟨m, fun _ => 0, ρ⟩ fun r => ∀ c : Dev nD,
      r.2.mem ((c : Thread nD τ).loc main_v1) = LowRank.layer (tokens m c) (table m c) (loadings m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference computes the layer.

  The reference is two host products: the component table with the loadings, then the tokens with that
  weight. Read at an entry, each product is the sum over its contracted coordinate of the two operands'
  entries; the left and right positions of the summand are (row, k) and (k, column). So the reference's
  result is `LowRank.layer` of its three arguments, entry by entry.
-/
import proofs.«423434_j26963804685044_3_alg».proof.Proof.Gen.ReferenceIdeal.Read
import proofs.«423434_j26963804685044_3_alg».proof.Proof.LowRank

open scoped BigOperators

noncomputable section

namespace Cert.ReferenceIdeal.RefLayer

open Cert.ReferenceIdeal Cert.ReferenceIdeal.Read Idealize.ShloMosaic Idealize.ShloMosaic.ValueIdx

/-- The left position of the first product's summand k at entry i: (row of i, k). -/
theorem left_weight (i : S4096x64.Idx) (k : Fin 64) : lidx_main_v0 i k = ix2 (i 0) k :=
  funext fun a => by match a with | ⟨0, _⟩ => rfl | ⟨1, _⟩ => rfl

/-- Its right position: (k, column of i). -/
theorem right_weight (i : S4096x64.Idx) (k : Fin 64) : ridx_main_v0 i k = ix2 k (i 1) :=
  funext fun a => by match a with | ⟨0, _⟩ => rfl | ⟨1, _⟩ => rfl

/-- The left position of the second product's summand k at entry i: (row of i, k). -/
theorem left_tokens (i : S16384x64.Idx) (k : Fin 4096) : lidx_main_v1 i k = ix2 (i 0) k :=
  funext fun a => by match a with | ⟨0, _⟩ => rfl | ⟨1, _⟩ => rfl

/-- Its right position: (k, column of i). -/
theorem right_tokens (i : S16384x64.Idx) (k : Fin 4096) : ridx_main_v1 i k = ix2 k (i 1) :=
  funext fun a => by match a with | ⟨0, _⟩ => rfl | ⟨1, _⟩ => rfl

/-- The first product is the reconstructed weight. -/
theorem weight_eq (comp : FVec Ideal S4096x64 .f32) (load : FVec Ideal S64x64 .f32) :
    val_main_v0 (F := Ideal) comp load = LowRank.mix comp load := by
  funext i
  rw [val_main_v0_apply]
  unfold LowRank.mix
  exact Finset.sum_congr rfl fun k _ => by rw [left_weight, right_weight]; rfl

/-- The reference's result is the layer of its arguments. -/
theorem result_eq (x : FVec Ideal S16384x4096 .f32) (comp : FVec Ideal S4096x64 .f32) (load : FVec Ideal S64x64 .f32) :
    val_main_v1 (F := Ideal) x comp load = LowRank.layer x comp load := by
  funext i
  rw [val_main_v1_apply, weight_eq]
  unfold LowRank.layer LowRank.project
  exact Finset.sum_congr rfl fun k _ => by rw [left_tokens, right_tokens]; rfl

end Cert.ReferenceIdeal.RefLayer

end
-- ==== Proof.lean ====
/-
  A low-rank dense layer: out = x · (components · loadings), with x of shape [16384, 4096], the component
  table [4096, 64] and the loading matrix [64, 64].

  The kernel forms the [4096, 64] weight on the host and then multiplies the tokens against it 512 rows at a
  time over a grid of 32 points; the reference forms the same weight and multiplies the whole token matrix
  against it at once. Over the extended reals both compute, at entry (i, o),
      Σ_k x[i, k] · (Σ_r components[k, r] · loadings[r, o]),
  with the sums nested the same way (`LowRank.layer`). The row tiling changes which entries are produced
  together, not what any entry is; a product into a zero accumulator is the plain sum; and the precision a
  product asks for plays no part over the reals. No law of the extended reals is used, so the finiteness
  of the inputs is never opened.

  `KernelLayer` reads the kernel's result array as the layer (the block written at point t is block t of the
  layer, and the 32 blocks tile the result); `RefLayer` reads the reference's two host products as the layer.
  The idealization rewrote nothing, so the kernel-to-idealized-kernel conjunct is trivial.
-/
import proofs.«423434_j26963804685044_3_alg».proof.Defs
import proofs.«423434_j26963804685044_3_alg».proof.Proof.Gen.Kernel
import proofs.«423434_j26963804685044_3_alg».proof.Proof.Gen.Kernel.Skeleton
import proofs.«423434_j26963804685044_3_alg».proof.Proof.Gen.Kernel.Launch
import proofs.«423434_j26963804685044_3_alg».proof.Proof.Gen.Kernel.Points
import proofs.«423434_j26963804685044_3_alg».proof.Proof.Gen.Kernel.Frame
import proofs.«423434_j26963804685044_3_alg».proof.Proof.Gen.KernelIdeal
import proofs.«423434_j26963804685044_3_alg».proof.Proof.Gen.KernelIdeal.Skeleton
import proofs.«423434_j26963804685044_3_alg».proof.Proof.Gen.KernelIdeal.Launch
import proofs.«423434_j26963804685044_3_alg».proof.Proof.Gen.KernelIdeal.Points
import proofs.«423434_j26963804685044_3_alg».proof.Proof.Gen.KernelIdeal.Frame
import proofs.«423434_j26963804685044_3_alg».proof.Proof.Gen.ReferenceIdeal
import proofs.«423434_j26963804685044_3_alg».proof.Proof.Gen.Pre_finite_inputs
import proofs.«423434_j26963804685044_3_alg».proof.Proof.Gen.KernelIdeal.Value
import proofs.«423434_j26963804685044_3_alg».proof.Proof.Gen.ReferenceIdeal.Run
import proofs.«423434_j26963804685044_3_alg».proof.Proof.Gen.ReferenceIdeal.Read
import proofs.«423434_j26963804685044_3_alg».proof.Proof.KernelLayer
import proofs.«423434_j26963804685044_3_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, both programs end with the layer of those arguments in
    their result array: the kernel block by block, the reference by its two products. -/
theorem algebraic : Cert.algebraic_KernelIdeal_ReferenceIdeal := by
  intro m ρ m' ρ' _ hagree
  refine ⟨fun c => LowRank.layer (Cert.KernelIdeal.Layer.tokens m c) (Cert.KernelIdeal.Layer.table m c)
    (Cert.KernelIdeal.Layer.loadings m c), Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefLayer.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
